-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x128 .f32) (main_arg3 : FVec F S128 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S5000x64 : Shape := ⟨2, ![5000, 64]⟩
abbrev S5000x128 : Shape := ⟨2, ![5000, 128]⟩
abbrev S1x128 : Shape := ⟨2, ![1, 128]⟩
abbrev S1x64 : Shape := ⟨2, ![1, 64]⟩

abbrev nBuf : Space → Nat
  | .hbm => 82
  | .vmem => 7
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S850000x1, .f32⟩
  | .hbm, ⟨56, _⟩ => ⟨S850000x64, .f32⟩
  | .hbm, ⟨57, _⟩ => ⟨S850000x64, .f32⟩
  | .hbm, ⟨58, _⟩ => ⟨S_, .f32⟩
  | .hbm, ⟨59, _⟩ => ⟨S50000x64, .f32⟩
  | .hbm, ⟨60, _⟩ => ⟨S850000x1, .i32⟩
  | .hbm, ⟨61, _⟩ => ⟨S50000x64, .f32⟩
  | .hbm, ⟨62, _⟩ => ⟨S50000x64, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x1, .f32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S128, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v42) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Finite.lean ====
/- From the precondition to "every entry is a real".

   The precondition says, of each float input, that the conjunction over all entries of |entry| < +∞ holds. The printed
   predicate is a chain of one-bit conjunctions of such reductions; a conjunction that is 1 has both sides 1, a reduction by
   conjunction that is 1 had a 1 at every entry, and an extended real whose absolute value is below +∞ is a real number.
   Only the node features and the first weight matrix are needed: they are the factors the interchange law moves. -/
import proofs.«100995_j23630910062676_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Idealize.ShloMosaic.ValueIdx Cert.Pre_finite_inputs

variable [Cert.Pre_finite_inputs.Facts]

instance : Subsingleton S_.Idx := ⟨fun _ _ => funext fun d => d.elim0⟩

/-- The word 0x7F800000 denotes +∞. -/
theorem ofBits_inf : Ideal.ofBits .f32 0x7F800000#32 = ⊤ := by simp [Ideal.ofBits, Ideal.ieee]

/-- An extended real whose absolute value compares below +∞ is a real. -/
theorem real_of_abs_lt (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  rw [Ideal.cmpf_def, Ideal.ofBits_def, ofBits_inf] at h
  induction x using EReal.rec with
  | bot => exact absurd h (by simp [Ideal.cmp, FloatOps.hostAbsf])
  | coe r => exact ⟨r, rfl⟩
  | top => exact absurd h (by simp [Ideal.cmp, FloatOps.hostAbsf])

/-- Under the precondition every node feature and every entry of the first weight matrix is a real. -/
theorem reals_of_pre (x : FVec Ideal S50000x64 .f32) (ei : IVec S2x800000 32) (w1 : FVec Ideal S64x128 .f32) (b1 : FVec Ideal S128 .f32)
    (w2 : FVec Ideal S128x64 .f32) (b2 : FVec Ideal S64 .f32) (h : fn (F := Ideal) x ei w1 b1 w2 b2 = fun _ => 1#1) :
    (∀ i, ∃ r : ℝ, x i = (r : EReal)) ∧ (∀ i, ∃ r : ℝ, w1 i = (r : EReal)) := by
  have h0 := congrFun h ix0
  dsimp only [fn, fn_part1] at h0
  obtain ⟨h18, -⟩ := IntOp.andi_eq_one.1 (show IntOp.andi _ _ = 1#1 from h0)
  obtain ⟨h13, -⟩ := IntOp.andi_eq_one.1 (show IntOp.andi _ _ = 1#1 from h18)
  obtain ⟨h8, -⟩ := IntOp.andi_eq_one.1 (show IntOp.andi _ _ = 1#1 from h13)
  obtain ⟨h3, h7⟩ := IntOp.andi_eq_one.1 (show IntOp.andi _ _ = 1#1 from h8)
  exact ⟨fun i => real_of_abs_lt (x i) (Host.reduce_andi_all _ _ _ _ ix0 h3 i),
    fun i => real_of_abs_lt (w1 i) (Host.reduce_andi_all _ _ _ _ ix0 h7 i)⟩

end Cert.Finite

end
-- ==== Proof.LibScatterGather.lean ====
/- The host's accumulating scatter and its row gather, read at one index, for the shapes that a segment sum
   over a list of edges and a row lookup by a list of edges take: a vector or a matrix of rows indexed by an
   [E × 1] column of signed index words.

   An update whose index word, read signed, lies in [0, N) is added into that row; any other update is dropped.
   A gathered row is the row at the index word read signed and clamped into [0, N − 1]. -/
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

/-- The row an index word names for a scatter into `N` rows: the word read signed, when it lies in [0, N);
    no row otherwise (the update is dropped). -/
def tgtW (N : Nat) {w : Nat} (x : BitVec w) : Option (Fin N) :=
  if h : 0 ≤ x.toInt ∧ x.toInt < (N : Int) then some ⟨x.toInt.toNat, by omega⟩ else none

/-- The row an index word names for a gather from `N` rows: the word read signed and clamped into [0, N − 1]. -/
def rowW (N : Nat) (hN : 0 < N) {w : Nat} (x : BitVec w) : Fin N := ⟨min x.toInt.toNat (N - 1), by omega⟩

/-- A word that names row `i` for the scatter names the same row for the gather. -/
theorem rowW_of_tgtW {N : Nat} (hN : 0 < N) {w : Nat} (x : BitVec w) (i : Fin N) (h : tgtW N x = some i) :
    rowW N hN x = i := by
  unfold tgtW at h
  split at h
  · next hx =>
    have hi : (⟨x.toInt.toNat, by omega⟩ : Fin N) = i := Option.some.inj h
    subst hi
    apply Fin.ext
    show min x.toInt.toNat (N - 1) = x.toInt.toNat
    omega
  · exact absurd h (by simp)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into a vector -/

section Vec

variable {N E w : Nat} (d : ScatterDims ⟨1, ![N]⟩ ⟨2, ![E, 1]⟩ ⟨1, ![E]⟩)

/-- The start of update `e`'s window on the operand's one axis: the e-th index word, read signed. -/
theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

/-- The operand's one axis is inserted: the window coordinate there is 0. -/
theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

/-- Where update `e` lands: the row its index word names, when it names one. -/
theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

/-- The scatter-add into a vector, at row `i`: the operand there plus the updates whose index word names row `i`. -/
theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

/-! ## The scatter of rows into a matrix -/

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

/-- The updates' scatter axis is axis 0 (axis 1 is the window axis). -/
theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is axis 1 (axis 0 is inserted). -/
theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

/-- The start of update (e, c)'s window on the operand's row axis: the e-th index word, read signed. -/
theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

/-- The start index names no column: the window starts at column 0. -/
theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

/-- The operand's row axis is inserted: the window coordinate there is 0. -/
theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

/-- The operand's column axis is the window axis: the window coordinate there is the update's column. -/
theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

/-- Where update (e, c) lands: column `c` of the row its index word names, when it names one. -/
theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

/-- The scatter-add of rows into a matrix, at (i, j): the operand there plus column `j` of the update rows whose
    index word names row `i`. -/
theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

/-! ## The row gather -/

section GatherRows

variable {N H E w : Nat} (d : GatherDims ⟨2, ![N, H]⟩ ⟨2, ![E, 1]⟩ ⟨2, ![E, H]⟩)

/-- The operand's kept axis is the column axis (the row axis is collapsed). -/
theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

/-- The result's batch axis is axis 0 (axis 1 is the offset axis). -/
theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

/-- Result index (e, j) reads its start index at row `e` of the column of index words. -/
theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the row axis: the e-th index word read signed and clamped into [0, N − 1]. -/
theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

/-- The start index names no column: the slice starts at column 0. -/
theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

/-- The offset coordinate on the column axis is the result's column. -/
theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

/-- The gather of rows of a matrix, at (e, j): column `j` of the row the e-th index word names. -/
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

/-- The gather of entries of a vector, at `e`: the entry the e-th index word names (the library's take, restated
    with `rowW`). -/
theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.AggLaw.lean ====
/- Aggregating rows and multiplying by a matrix commute, over the extended reals, when every entry is a real number.

   For a finite set S of edges, a row lookup g, edge weights c, a matrix x and a column w of another matrix:
     sum over k of (0 + sum over e in S of x (g e) k * c e) * w k  =  0 + sum over e in S of (sum over k of x (g e) k * w k) * c e.
   Over the reals this is distributivity and an exchange of the two sums. Over the extended reals distributivity fails at
   the infinities, so the statement asks every entry to be (the image of) a real, and the proof moves both sides into the
   reals, where the law is plain algebra. -/
import Mathlib.Data.EReal.Basic
import Mathlib.Data.EReal.Operations
import Mathlib.Algebra.BigOperators.Ring.Finset
import Mathlib.Algebra.BigOperators.Group.Finset.Sigma
import Mathlib.Tactic.Ring

noncomputable section

namespace Cert.AggLaw

open scoped BigOperators

/-- The inclusion of the reals in the extended reals carries a finite sum to the finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: distribute, exchange the sums, reassociate the products. -/
theorem agg_mul_real {E N K : Type*} [Fintype K] (S : Finset E) (g : E → N) (x : N → K → ℝ) (w : K → ℝ) (c : E → ℝ) :
    ∑ k, (0 + ∑ e ∈ S, x (g e) k * c e) * w k = 0 + ∑ e ∈ S, (∑ k, x (g e) k * w k) * c e := by
  simp only [zero_add, Finset.sum_mul]
  rw [Finset.sum_comm]
  refine Finset.sum_congr rfl fun e _ => Finset.sum_congr rfl fun k _ => ?_
  ring

/-- The law over the extended reals, every entry a real: aggregating the rows of x with weights c and then multiplying by
    the column w is multiplying every row by w first and aggregating the products. -/
theorem agg_mul {E N K : Type*} [Fintype K] (S : Finset E) (g : E → N) (x : N → K → EReal) (w : K → EReal) (c : E → EReal)
    (hx : ∀ n k, ∃ r : ℝ, x n k = (r : EReal)) (hw : ∀ k, ∃ r : ℝ, w k = (r : EReal)) (hc : ∀ e, ∃ r : ℝ, c e = (r : EReal)) :
    ∑ k, (0 + ∑ e ∈ S, x (g e) k * c e) * w k = 0 + ∑ e ∈ S, (∑ k, x (g e) k * w k) * c e := by
  choose xr hxr using hx
  choose wr hwr using hw
  choose cr hcr using hc
  have hL : ∑ k, (0 + ∑ e ∈ S, x (g e) k * c e) * w k
      = ((∑ k, (0 + ∑ e ∈ S, xr (g e) k * cr e) * wr k : ℝ) : EReal) := by
    rw [coe_sum]
    refine Finset.sum_congr rfl fun k _ => ?_
    rw [EReal.coe_mul, EReal.coe_add, EReal.coe_zero, coe_sum, hwr k]
    congr 2
    refine Finset.sum_congr rfl fun e _ => ?_
    rw [EReal.coe_mul, hxr, hcr]
  have hR : 0 + ∑ e ∈ S, (∑ k, x (g e) k * w k) * c e
      = ((0 + ∑ e ∈ S, (∑ k, xr (g e) k * wr k) * cr e : ℝ) : EReal) := by
    rw [EReal.coe_add, EReal.coe_zero, coe_sum]
    congr 1
    refine Finset.sum_congr rfl fun e _ => ?_
    rw [EReal.coe_mul, coe_sum, hcr e]
    congr 1
    refine Finset.sum_congr rfl fun k _ => ?_
    rw [EReal.coe_mul, hxr, hwr]
  rw [hL, hR, agg_mul_real]

end Cert.AggLaw

end
-- ==== Proof.Weights.lean ====
/- The edge weights of the normalised adjacency are real numbers.

   Every node's degree is a count: the scatter-add of a one per edge into a zero vector, so a finite sum of ones. The
   inverse square root is taken only where the degree is positive, and zero is put elsewhere, so every entry of the
   inverse-root vector is a real. An edge's weight is the product of two gathered entries of that vector. -/
import proofs.«100995_j23630910062676_1_alg».proof.Proof.RefRead
import proofs.«100995_j23630910062676_1_alg».proof.Proof.LibScatterGather
import proofs.«100995_j23630910062676_1_alg».proof.Proof.AggLaw
import Idealize.ShloMosaic.Lib.ValueIdx
import Idealize.ShloMosaic.Lib.IdealHost
import Idealize.ShloMosaic.PureOps.Ideal.Laws

noncomputable section

namespace Cert.Bridge

open Idealize.ShloMosaic Idealize.ShloMosaic.ValueIdx Cert.ReferenceIdeal Cert.ReferenceIdeal.Read Cert.ScatterGather
open scoped BigOperators

/-- The edge list, as the program's argument: two rows of index words. -/
abbrev EI := (⟨S2x800000, .i32⟩ : BufTy).Contents (Elt Ideal)

/-- The degree of node `i` (self-loop included) is a real: zero plus a one for every edge whose target word names `i`. -/
theorem deg_real (ei : EI) (i : Fin 50000) : ∃ d : ℝ, val_main_v10 (F := Ideal) ei (ix1 i) = (d : EReal) := by
  have h1 : ∀ e : Fin 850000, val_main_v7 (F := Ideal) (ix1 e) = ((1 : ℝ) : EReal) := fun e => by
    rw [val_main_v7_apply, val_main_cst_apply, Ideal.ofBits_def, Ideal.ofBits_one_f32]
    rfl
  have e10 : val_main_v10 (F := Ideal) ei = Ideal.hostScatterAdd scatter_S50000_S850000x1_S850000_n_0_0_1 (val_main_v8 (F := Ideal))
      (val_main_v9 (F := Ideal) ei) (val_main_v7 (F := Ideal)) := rfl
  rw [e10, scatterAdd_vec_apply (N := 50000) (E := 850000) (w := 32) scatter_S50000_S850000x1_S850000_n_0_0_1 rfl rfl rfl rfl
    (val_main_v8 (F := Ideal)) (val_main_v9 (F := Ideal) ei) (val_main_v7 (F := Ideal)) i,
    val_main_v8_apply, val_main_cst_0_apply, Ideal.ofBits_def, Ideal.ofBits_zero_f32, zero_add]
  simp only [h1]
  exact ⟨_, (AggLaw.coe_sum _ _).symm⟩

/-- The inverse root of the degree, with zero where the degree is not positive, is a real at every node. -/
theorem dinv_real (ei : EI) (i : Fin 50000) : ∃ r : ℝ, val_main_v14 (F := Ideal) ei (ix1 i) = (r : EReal) := by
  obtain ⟨d, hd⟩ := deg_real ei i
  rw [val_main_v14_apply, val_main_v12_apply, val_main_v13_apply, hd, val_main_v11_apply, val_main_cst_1_apply,
    val_main_call0_v1_apply, val_main_call0_v0_apply, val_main_cst_2_apply]
  simp only [Ideal.ofBits_def, Ideal.ofBits_zero_f32, Ideal.cmpf_def, Ideal.hostUnary_rsqrt_def]
  unfold Scalar.select Ideal.cmp
  by_cases h : (0 : EReal) < (d : EReal)
  · have hd0 : 0 < d := by exact_mod_cast h
    refine ⟨(Real.sqrt d)⁻¹, ?_⟩
    simp [h, Ideal.rsqrt_coe, not_lt.mpr hd0.le, hd0.ne']
  · exact ⟨0, by simp [h]⟩

/-- An edge's weight is a real: the product of the inverse roots at its two (clamped) end nodes. -/
theorem wgt_real (ei : EI) (e : Fin 850000) : ∃ r : ℝ, val_main_v29 (F := Ideal) ei (ix1 e) = (r : EReal) := by
  have h21 : val_main_v21 (F := Ideal) ei (ix1 e)
      = val_main_v14 (F := Ideal) ei (ix1 (rowW 50000 (by decide) (val_main_v20 (F := Ideal) ei (ix2 e 0)))) := by
    unfold val_main_v21
    exact gather_vec_apply (N := 50000) (E := 850000) (by decide) gather_S50000_S850000x1_S850000_n_0_n_n_0_1_1 rfl rfl rfl rfl _ _ e
  have h28 : val_main_v28 (F := Ideal) ei (ix1 e)
      = val_main_v14 (F := Ideal) ei (ix1 (rowW 50000 (by decide) (val_main_v27 (F := Ideal) ei (ix2 e 0)))) := by
    unfold val_main_v28
    exact gather_vec_apply (N := 50000) (E := 850000) (by decide) gather_S50000_S850000x1_S850000_n_0_n_n_0_1_1 rfl rfl rfl rfl _ _ e
  obtain ⟨a, ha⟩ := dinv_real ei (rowW 50000 (by decide) (val_main_v20 (F := Ideal) ei (ix2 e 0)))
  obtain ⟨b, hb⟩ := dinv_real ei (rowW 50000 (by decide) (val_main_v27 (F := Ideal) ei (ix2 e 0)))
  refine ⟨a * b, ?_⟩
  rw [val_main_v29_apply, h21, h28, ha, hb, Ideal.mulf_def, EReal.coe_mul]

end Cert.Bridge

end
-- ==== Proof.AggSpec.lean ====
/- The aggregation over the edges, read at one index, and the interchange of aggregation and the first weight matrix.

   With S n the edges whose target word names node n, row e the (clamped) source node of edge e and wgt e its weight, the
   aggregation of a matrix v of node rows is, at (n, j):   0 + sum over e in S n of v (row e, j) * wgt e.
   Both programs build it from the same gather, product with the broadcast weights, and scatter-add into zeros. The reference
   aggregates the rows of x · W1 (width 128); the kernel aggregates the rows of x (width 64) and multiplies by W1 afterwards.
   With every entry of x and W1 a real, and every weight a real, the two agree. -/
import proofs.«100995_j23630910062676_1_alg».proof.Proof.RefRead
import proofs.«100995_j23630910062676_1_alg».proof.Proof.LibScatterGather
import proofs.«100995_j23630910062676_1_alg».proof.Proof.LibDotPlain
import proofs.«100995_j23630910062676_1_alg».proof.Proof.AggLaw
import proofs.«100995_j23630910062676_1_alg».proof.Proof.Weights
import Idealize.ShloMosaic.Lib.ValueIdx
import Idealize.ShloMosaic.PureOps.Ideal.Laws

noncomputable section

namespace Cert.Bridge

open Idealize.ShloMosaic Idealize.ShloMosaic.ValueIdx Cert.ReferenceIdeal Cert.ReferenceIdeal.Read Cert.ScatterGather
open scoped BigOperators

variable {F : FTy → Type} [FloatOps F]

/-! ## The aggregation as one term, for any float family -/

/-- Gather the rows of `v` at the edges' source nodes, scale each by its edge's weight, add each into its target node's row of
    a zero matrix: the operations both programs apply, to a matrix of 64 columns. -/
def agg (v : (⟨S50000x64, .f32⟩ : BufTy).Contents (Elt F)) (ei : (⟨S2x800000, .i32⟩ : BufTy).Contents (Elt F)) :
    (⟨S50000x64, .f32⟩ : BufTy).Contents (Elt F) :=
  Host.scatterAdd scatter_S50000x64_S850000x1_S850000x64_1_0_0_1 (val_main_v59 (F := F)) (val_main_v60 (F := F) ei)
    (mulf (Host.gather gather_S50000x64_S850000x1_S850000x64_1_0_n_n_0_1_164 v (val_main_v54 (F := F) ei)) (val_main_v57 (F := F) ei))

/-- The reference's result is the aggregation of its second product, plus the second bias on every row. -/
theorem ref_result (x0 : (⟨S50000x64, .f32⟩ : BufTy).Contents (Elt F)) (x1 : (⟨S2x800000, .i32⟩ : BufTy).Contents (Elt F))
    (x2 : (⟨S64x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F)) :
    val_main_v64 (F := F) x0 x1 x2 x3 x4 x5 = addf (agg (val_main_v48 (F := F) x0 x1 x2 x3 x4) x1) (val_main_v63 (F := F) x5) := rfl

/-- The two aggregations of the reference scatter by the same index column … -/
theorem sidx_eq (x1 : (⟨S2x800000, .i32⟩ : BufTy).Contents (Elt F)) : val_main_v42 (F := F) x1 = val_main_v60 (F := F) x1 := rfl
/-- … and gather by the same index column. -/
theorem gidx_eq (x1 : (⟨S2x800000, .i32⟩ : BufTy).Contents (Elt F)) : val_main_v36 (F := F) x1 = val_main_v54 (F := F) x1 := rfl

/-! ## At the extended reals, index by index -/

/-- The edges whose target word names node `n`. -/
def edgesTo (ei : EI) (n : Fin 50000) : Finset (Fin 850000) :=
  Finset.univ.filter (fun e : Fin 850000 => tgtW 50000 (val_main_v60 (F := Ideal) ei (ix2 e 0)) = some n)

/-- The node whose row edge `e` gathers. -/
def srcRow (ei : EI) (e : Fin 850000) : Fin 50000 := rowW 50000 (by decide) (val_main_v54 (F := Ideal) ei (ix2 e 0))

/-- The weight of edge `e`. -/
def wgt (ei : EI) (e : Fin 850000) : EReal := val_main_v29 (F := Ideal) ei (ix1 e)

/-- The weights broadcast along 64 columns read the edge's weight. -/
theorem wcol64_apply (ei : EI) (e : Fin 850000) (j : Fin 64) : val_main_v57 (F := Ideal) ei (ix2 e j) = wgt ei e := by
  rw [val_main_v57_apply, val_main_v56_apply]
  unfold wgt
  congr 1
  funext a
  match a with
  | ⟨0, _⟩ => rfl

/-- The weights broadcast along 128 columns read the edge's weight. -/
theorem wcol128_apply (ei : EI) (e : Fin 850000) (l : Fin 128) : val_main_v39 (F := Ideal) ei (ix2 e l) = wgt ei e := by
  rw [val_main_v39_apply, val_main_v38_apply]
  unfold wgt
  congr 1
  funext a
  match a with
  | ⟨0, _⟩ => rfl

/-- The host's accumulating scatter at the extended reals is the exact sum (the library's defining equation, for the printed
    spelling). -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- The aggregation of a 64-column matrix at (n, j). -/
theorem agg_apply (v : (⟨S50000x64, .f32⟩ : BufTy).Contents (Elt Ideal)) (ei : EI) (n : Fin 50000) (j : Fin 64) :
    agg (F := Ideal) v ei (ix2 n j) = 0 + ∑ e ∈ edgesTo ei n, v (ix2 (srcRow ei e) j) * wgt ei e := by
  have eA : agg (F := Ideal) v ei = Ideal.hostScatterAdd scatter_S50000x64_S850000x1_S850000x64_1_0_0_1 (val_main_v59 (F := Ideal))
      (val_main_v60 (F := Ideal) ei)
      (mulf (F := Ideal) (φ := .f32) (Host.gather gather_S50000x64_S850000x1_S850000x64_1_0_n_n_0_1_164 v (val_main_v54 (F := Ideal) ei)) (val_main_v57 (F := Ideal) ei)) :=
    scatterAdd_ideal _ _ _ _
  have hterm : ∀ e : Fin 850000,
      (mulf (F := Ideal) (φ := .f32) (Host.gather gather_S50000x64_S850000x1_S850000x64_1_0_n_n_0_1_164 v (val_main_v54 (F := Ideal) ei)) (val_main_v57 (F := Ideal) ei)) (ix2 e j)
        = v (ix2 (srcRow ei e) j) * wgt ei e := fun e => by
    rw [mulf_apply, wcol64_apply]
    congr 1
    exact gather_rows_apply (N := 50000) (H := 64) (E := 850000) (by decide) gather_S50000x64_S850000x1_S850000x64_1_0_n_n_0_1_164
      rfl rfl rfl rfl rfl rfl rfl v (val_main_v54 (F := Ideal) ei) e j
  rw [eA, scatterAdd_rows_apply (N := 50000) (H := 64) (E := 850000) (w := 32) scatter_S50000x64_S850000x1_S850000x64_1_0_0_1
    rfl rfl rfl rfl (val_main_v59 (F := Ideal)) (val_main_v60 (F := Ideal) ei) _ n j,
    val_main_v59_apply, val_main_cst_11_apply, Ideal.ofBits_def, Ideal.ofBits_zero_f32]
  simp only [hterm]
  unfold edgesTo
  rfl

/-- The reference's first aggregation (of the rows of x · W1, 128 columns) at (n, l). -/
theorem agg128_apply (x : (⟨S50000x64, .f32⟩ : BufTy).Contents (Elt Ideal)) (ei : EI) (w1 : (⟨S64x128, .f32⟩ : BufTy).Contents (Elt Ideal))
    (n : Fin 50000) (l : Fin 128) :
    val_main_v43 (F := Ideal) x ei w1 (ix2 n l)
      = 0 + ∑ e ∈ edgesTo ei n, (∑ k : Fin 64, x (ix2 (srcRow ei e) k) * w1 (ix2 k l)) * wgt ei e := by
  have eA : val_main_v43 (F := Ideal) x ei w1 = Ideal.hostScatterAdd scatter_S50000x128_S850000x1_S850000x128_1_0_0_1 (val_main_v41 (F := Ideal))
      (val_main_v60 (F := Ideal) ei) (val_main_v40 (F := Ideal) x ei w1) :=
    scatterAdd_ideal _ _ _ _
  have e37 : val_main_v37 (F := Ideal) x ei w1 = Host.gather gather_S50000x128_S850000x1_S850000x128_1_0_n_n_0_1_1128
      (val_main_v30 (F := Ideal) x w1) (val_main_v54 (F := Ideal) ei) := rfl
  have e30 : ∀ r : Fin 50000, val_main_v30 (F := Ideal) x w1 (ix2 r l) = ∑ k : Fin 64, x (ix2 r k) * w1 (ix2 k l) := fun r =>
    Cert.DotPlain.dotGeneral_rows_cols (M := 50000) (K := 64) (N := 128) (φ₁ := .f32) (φ₂ := .f32)
      dot_S50000x64_S64x128_S50000x128_1_0_0_1_n_n rfl rfl rfl rfl rfl rfl none .single x w1 r l
  have hterm : ∀ e : Fin 850000, val_main_v40 (F := Ideal) x ei w1 (ix2 e l)
      = (∑ k : Fin 64, x (ix2 (srcRow ei e) k) * w1 (ix2 k l)) * wgt ei e := fun e => by
    rw [val_main_v40_apply, Ideal.mulf_def, wcol128_apply, e37,
      gather_rows_apply (N := 50000) (H := 128) (E := 850000) (by decide) gather_S50000x128_S850000x1_S850000x128_1_0_n_n_0_1_1128
        rfl rfl rfl rfl rfl rfl rfl (val_main_v30 (F := Ideal) x w1) (val_main_v54 (F := Ideal) ei) e l]
    exact congrArg (fun z => z * wgt ei e) (e30 (srcRow ei e))
  rw [eA, scatterAdd_rows_apply (N := 50000) (H := 128) (E := 850000) (w := 32) scatter_S50000x128_S850000x1_S850000x128_1_0_0_1
    rfl rfl rfl rfl (val_main_v41 (F := Ideal)) (val_main_v60 (F := Ideal) ei) _ n l,
    val_main_v41_apply, val_main_cst_8_apply, Ideal.ofBits_def, Ideal.ofBits_zero_f32]
  simp only [hterm]
  unfold edgesTo
  rfl

/-- THE INTERCHANGE. With every entry of x and of W1 a real: row n of the aggregated x times column l of W1 is entry (n, l) of
    the aggregated x · W1. -/
theorem agg_then_mul (x : (⟨S50000x64, .f32⟩ : BufTy).Contents (Elt Ideal)) (ei : EI) (w1 : (⟨S64x128, .f32⟩ : BufTy).Contents (Elt Ideal))
    (hx : ∀ i, ∃ r : ℝ, x i = (r : EReal)) (hw : ∀ i, ∃ r : ℝ, w1 i = (r : EReal)) (n : Fin 50000) (l : Fin 128) :
    ∑ k : Fin 64, agg (F := Ideal) x ei (ix2 n k) * w1 (ix2 k l) = val_main_v43 (F := Ideal) x ei w1 (ix2 n l) := by
  rw [agg128_apply]
  have h := AggLaw.agg_mul (edgesTo ei n) (srcRow ei) (fun (r : Fin 50000) (k : Fin 64) => x (ix2 r k)) (fun k : Fin 64 => w1 (ix2 k l)) (wgt ei)
    (fun r k => hx (ix2 r k)) (fun k => hw (ix2 k l)) (fun e => wgt_real ei e)
  rw [← h]
  refine Finset.sum_congr rfl fun k _ => ?_
  rw [agg_apply]

end Cert.Bridge

end
-- ==== Proof.KernelBody.lean ====
/- The kernel body at one index of its row block.

   On a block of 5000 rows the body computes, for row p and output column q,
     sum over l of max (sum over k of a (p, k) * w1 (k, l) + b1 l, 0) * w2 (l, q):
   the first product into a zero accumulator, the bias row added to every row, the maximum with zero, the second product into a
   zero accumulator. The narrowing of a product's operands to a shorter float format is the identity on the extended reals. -/
import proofs.«100995_j23630910062676_1_alg».proof.Proof.Gen.KernelIdeal.Frame
import proofs.«100995_j23630910062676_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Idealize.ShloMosaic.Pipeline Cert.KernelIdeal Cert.KernelIdeal.Gen
open scoped BigOperators

/-- The first layer before the maximum, at (p, l): row p of the block times column l of the first weight matrix, plus the bias. -/
theorem hidden_apply (x0 : FVec Ideal S5000x64 .f32) (x1 : FVec Ideal S64x128 .f32) (x2 : FVec Ideal S128 .f32)
    (p : Fin 5000) (l : Fin 128) :
    addf (matmul dot_S5000x64_S64x128_S5000x128_1_0_0_1_n_n none
        (truncf .bf16 (shapeCast S5000x64 x0 shapeCasts_S5000x64_S5000x64) bitsLt_bf16_f32) (truncf .bf16 x1 bitsLt_bf16_f32)
        (constant S5000x128 .f32 0x00000000#32))
      (broadcastTo S5000x128 (shapeCast S1x128 x2 shapeCasts_S128_S1x128) broadcasts_S1x128_S5000x128) (ix2 p l)
    = (∑ k : Fin 64, x0 (ix2 p k) * x1 (ix2 k l)) + x2 (ix1 l) := by
  rw [addf_apply]
  congr 1
  · refine (Cert.DotPlain.matmul_zero_rows_cols (M := 5000) (K := 64) (N := 128) dot_S5000x64_S64x128_S5000x128_1_0_0_1_n_n
      rfl rfl rfl rfl rfl rfl none _ _ p l).trans ?_
    refine Finset.sum_congr rfl fun k _ => ?_
    rw [truncf_apply, truncf_apply, shapeCast_self]
  · rw [broadcastTo_1b_ab_apply, shapeCast_a_1a_apply]

/-- The body's one payload at (p, q). -/
theorem pay_apply (x0 : FVec Ideal S5000x64 .f32) (x1 : FVec Ideal S64x128 .f32) (x2 : FVec Ideal S128 .f32)
    (x3 : FVec Ideal S128x64 .f32) (p : Fin 5000) (q : Fin 64) :
    k0_pay1 (F := Ideal) x0 x1 x2 x3 (ix2 p q)
      = ∑ l : Fin 128, max ((∑ k : Fin 64, x0 (ix2 p k) * x1 (ix2 k l)) + x2 (ix1 l)) 0 * x3 (ix2 l q) := by
  unfold k0_pay1
  refine (Cert.DotPlain.matmul_zero_rows_cols (M := 5000) (K := 128) (N := 64) dot_S5000x128_S128x64_S5000x64_1_0_0_1_n_n
    rfl rfl rfl rfl rfl rfl none _ _ p q).trans ?_
  refine Finset.sum_congr rfl fun l _ => ?_
  rw [truncf_apply, truncf_apply, maximumf_apply, hidden_apply, broadcast_apply]
  congr 2
  exact Ideal.ofBits_zero_f32

end Cert.KernelIdeal.Body

end
-- ==== Proof.KernelArray.lean ====
/- The array the kernel's region leaves: every row of its input through the two-layer map.

   The region runs the body on ten blocks of 5000 consecutive rows. Block t of the input is rows 5000 t … 5000 t + 4999, the
   weight matrices and the bias are read whole at every point, and block t of the output is written back to the same rows.
   A row of the result depends only on the same row of the input, so what point t writes back is block t of ONE function of
   the whole arrays; the ten blocks cover every row, so the array ends at that function. -/
import proofs.«100995_j23630910062676_1_alg».proof.Proof.Gen.KernelIdeal.Frame
import proofs.«100995_j23630910062676_1_alg».proof.Proof.KernelBody
import Idealize.ShloMosaic.Lib.Pipeline.Value
import Idealize.ShloMosaic.Lib.ValueIdx

set_option maxRecDepth 16384

noncomputable section

namespace Cert.KernelIdeal.Arr

open Idealize.ShloMosaic Idealize.ShloMosaic.ValueIdx Idealize.ShloMosaic.Pipeline Idealize.ShloMosaic.TcCoe Idealize.SL.Sem
open Cert.KernelIdeal Cert.KernelIdeal.Gen
open scoped BigOperators

variable (m : (ℓ : Loc nD τ sig) → Buf (Elt Ideal) ℓ)

/-! ## The whole-array function -/

/-- Row `n`, column `q` of the two-layer map of `a`. -/
def mlpAt (a : S50000x64.Idx → EReal) (w1 : S64x128.Idx → EReal) (b1 : S128.Idx → EReal) (w2 : S128x64.Idx → EReal)
    (n : Fin 50000) (q : Fin 64) : EReal :=
  ∑ l : Fin 128, max ((∑ k : Fin 64, a (ix2 n k) * w1 (ix2 k l)) + b1 (ix1 l)) 0 * w2 (ix2 l q)

/-- The two-layer map of every row of `a`. -/
def mlp (a : S50000x64.Idx → EReal) (w1 : S64x128.Idx → EReal) (b1 : S128.Idx → EReal) (w2 : S128x64.Idx → EReal) :
    S50000x64.Idx → EReal :=
  fun i => mlpAt a w1 b1 w2 ⟨(i 0).val, (i 0).isLt⟩ ⟨(i 1).val, (i 1).isLt⟩

theorem mlp_ix2 (a : S50000x64.Idx → EReal) (w1 : S64x128.Idx → EReal) (b1 : S128.Idx → EReal) (w2 : S128x64.Idx → EReal)
    (n : Fin 50000) (q : Fin 64) : mlp a w1 b1 w2 (ix2 n q) = mlpAt a w1 b1 w2 n q := rfl

/-! ## The arrays as the region finds them, at their literal types -/

abbrev arrA (c : Dev nD) : FVec Ideal S50000x64 .f32 := V m c (Pipeline.arrRef spec0 0)
abbrev arrW1 (c : Dev nD) : FVec Ideal S64x128 .f32 := V m c (Pipeline.arrRef spec0 1)
abbrev arrB1 (c : Dev nD) : FVec Ideal S128 .f32 := V m c (Pipeline.arrRef spec0 2)
abbrev arrW2 (c : Dev nD) : FVec Ideal S128x64 .f32 := V m c (Pipeline.arrRef spec0 3)

/-- The printed index maps over the grid: the row windows sit at block t, column block 0; the others at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 10 := by
  have h := t.isLt
  have hN : grid0.N = 10 := Gen.N_0
  exact hN ▸ h

/-- Row p of block t of a 50000-row array is its row 5000 t + p: read through the window, for ANY contents of the array. -/
theorem read_blkA (A : FVec Ideal S50000x64 .f32) (t : Fin cfg0.N) (p : Fin 5000) (k : Fin 64) (n : Fin 50000)
    (hn : n.val = t.val * 5000 + p.val) :
    (((cfg0.win 0).blk t).view.read (Elt Ideal) A : FVec Ideal S5000x64 .f32) (ix2 p k) = A (ix2 n k) := by
  show A (((cfg0.win 0).blk t).view.emb (ix2 p k)) = A (ix2 n k)
  obtain ⟨e0, e1, -⟩ := idx_facts t
  refine congrArg A (funext fun a => Fin.ext ?_)
  match a with
  | ⟨0, _⟩ => show win0_0.index t (0 : Fin 2) * 5000 + 1 * p.val = n.val; omega
  | ⟨1, _⟩ => show win0_0.index t (1 : Fin 2) * 64 + 1 * k.val = k.val; omega

/-- The first weight matrix's window reads the matrix itself. -/
theorem read_blkW1 (A : FVec Ideal S64x128 .f32) (t : Fin cfg0.N) (k : Fin 64) (l : Fin 128) :
    (((cfg0.win 1).blk t).view.read (Elt Ideal) A : FVec Ideal S64x128 .f32) (ix2 k l) = A (ix2 k l) := by
  show A (((cfg0.win 1).blk t).view.emb (ix2 k l)) = A (ix2 k l)
  obtain ⟨-, -, e0, e1, -⟩ := idx_facts t
  refine congrArg A (funext fun a => Fin.ext ?_)
  match a with
  | ⟨0, _⟩ => show win0_1.index t (0 : Fin 2) * 64 + 1 * k.val = k.val; omega
  | ⟨1, _⟩ => show win0_1.index t (1 : Fin 2) * 128 + 1 * l.val = l.val; omega

/-- The bias's window reads the bias itself. -/
theorem read_blkB1 (A : FVec Ideal S128 .f32) (t : Fin cfg0.N) (l : Fin 128) :
    (((cfg0.win 2).blk t).view.read (Elt Ideal) A : FVec Ideal S128 .f32) (ix1 l) = A (ix1 l) := by
  show A (((cfg0.win 2).blk t).view.emb (ix1 l)) = A (ix1 l)
  obtain ⟨-, -, -, -, e0, -⟩ := idx_facts t
  refine congrArg A (funext fun a => Fin.ext ?_)
  match a with
  | ⟨0, _⟩ => show win0_2.index t (0 : Fin 1) * 128 + 1 * l.val = l.val; omega

/-- The second weight matrix's window reads the matrix itself. -/
theorem read_blkW2 (A : FVec Ideal S128x64 .f32) (t : Fin cfg0.N) (l : Fin 128) (q : Fin 64) :
    (((cfg0.win 3).blk t).view.read (Elt Ideal) A : FVec Ideal S128x64 .f32) (ix2 l q) = A (ix2 l q) := by
  show A (((cfg0.win 3).blk t).view.emb (ix2 l q)) = A (ix2 l q)
  obtain ⟨-, -, -, -, -, e0, e1, -⟩ := idx_facts t
  refine congrArg A (funext fun a => Fin.ext ?_)
  match a with
  | ⟨0, _⟩ => show win0_3.index t (0 : Fin 2) * 128 + 1 * l.val = l.val; omega
  | ⟨1, _⟩ => show win0_3.index t (1 : Fin 2) * 64 + 1 * q.val = q.val; omega

/-- Entry (p, q) of the output's block t sits at row 5000 t + p, column q of the array. -/
theorem out_emb (t : Fin cfg0.N) (p : Fin 5000) (q : Fin 64) (n : Fin 50000) (hn : n.val = t.val * 5000 + p.val) :
    ((cfg0.win 4).blk t).view.emb (ix2 p q) = (ix2 n q : S50000x64.Idx) := by
  obtain ⟨-, -, -, -, -, -, -, e0, e1⟩ := idx_facts t
  refine funext fun a => Fin.ext ?_
  match a with
  | ⟨0, _⟩ => show win0_4.index t (0 : Fin 2) * 5000 + 1 * p.val = n.val; omega
  | ⟨1, _⟩ => show win0_4.index t (1 : Fin 2) * 64 + 1 * q.val = q.val; omega

theorem hz2 : (![0, 0] : Fin 2 → Nat) = fun _ => 0 := funext fun a => by fin_cases a <;> rfl
theorem hz1 : (![0] : Fin 1 → Nat) = fun _ => 0 := funext fun a => by fin_cases a; rfl

/-- The arithmetic of one point, over ANY arrays and ANY blocks that read them as the windows do: entry (p, q) of the body's
    payload on the blocks is entry (n, q) of the two-layer map of the arrays, n the array row that block row p is. -/
theorem body_rows (A0 : FVec Ideal S50000x64 .f32) (A1 : FVec Ideal S64x128 .f32) (A2 : FVec Ideal S128 .f32) (A3 : FVec Ideal S128x64 .f32)
    (b0 : FVec Ideal S5000x64 .f32) (b1 : FVec Ideal S64x128 .f32) (b2 : FVec Ideal S128 .f32) (b3 : FVec Ideal S128x64 .f32) (n0 : Nat)
    (h0 : ∀ (p : Fin 5000) (k : Fin 64) (n : Fin 50000), n.val = n0 + p.val → b0 (ix2 p k) = A0 (ix2 n k))
    (h1 : ∀ (k : Fin 64) (l : Fin 128), b1 (ix2 k l) = A1 (ix2 k l)) (h2 : ∀ l : Fin 128, b2 (ix1 l) = A2 (ix1 l))
    (h3 : ∀ (l : Fin 128) (q : Fin 64), b3 (ix2 l q) = A3 (ix2 l q))
    (p : Fin 5000) (q : Fin 64) (n : Fin 50000) (hn : n.val = n0 + p.val) :
    k0_pay1 (F := Ideal) b0 b1 b2 b3 (ix2 p q) = mlpAt A0 A1 A2 A3 n q := by
  refine (Body.pay_apply b0 b1 b2 b3 p q).trans ?_
  unfold mlpAt
  refine Finset.sum_congr rfl fun l _ => ?_
  have hs : (∑ k : Fin 64, b0 (ix2 p k) * b1 (ix2 k l)) = ∑ k : Fin 64, A0 (ix2 n k) * A1 (ix2 k l) :=
    Finset.sum_congr rfl fun k _ => by rw [h0 p k n hn, h1]
  rw [h2, h3, hs]

/-- What the body leaves at point t, cut to the block, is block t of the two-layer map: for ANY contents of the four arrays. -/
theorem flushed_abs (A0 : FVec Ideal S50000x64 .f32) (A1 : FVec Ideal S64x128 .f32) (A2 : FVec Ideal S128 .f32) (A3 : FVec Ideal S128x64 .f32)
    (t : Fin cfg0.N) :
    (cfg0.win 4).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (mlp A0 A1 A2 A3) := by
  funext j
  obtain ⟨p, q, rfl⟩ : ∃ (p : Fin 5000) (q : Fin 64), j = ix2 p q := ⟨j 0, j 1, eq_ix2 j⟩
  have ht := t_lt t
  have hp := p.isLt
  have hn : (⟨t.val * 5000 + p.val, by omega⟩ : Fin 50000).val = t.val * 5000 + p.val := rfl
  show k0_pay1 (F := Ideal) (((cfg0.win 0).blk t).view.read (Elt Ideal) A0) (((cfg0.win 1).blk t).view.read (Elt Ideal) A1)
      (((cfg0.win 2).blk t).view.read (Elt Ideal) A2) (((cfg0.win 3).blk t).view.read (Elt Ideal) A3) (ix2 p q)
    = mlp A0 A1 A2 A3 (((cfg0.win 4).blk t).view.emb (ix2 p q))
  rw [out_emb t p q ⟨t.val * 5000 + p.val, by omega⟩ hn, mlp_ix2]
  exact body_rows A0 A1 A2 A3 _ _ _ _ (t.val * 5000) (fun p k n hn => read_blkA A0 t p k n hn) (read_blkW1 A1 t) (read_blkB1 A2 t)
    (read_blkW2 A3 t) p q ⟨t.val * 5000 + p.val, by omega⟩ hn

/-- WHAT POINT t WRITES BACK is block t of the two-layer map of the arrays as the region finds them. -/
theorem flushed_eq (c : Dev nD) (t : Fin cfg0.N) :
    (dats m 0 c).flushed 4 t
      = ((cfg0.win 4).blk t).view.read (Elt Ideal) (mlp (arrA m c) (arrW1 m c) (arrB1 m c) (arrW2 m c)) := by
  show (cfg0.win 4).cut (grid0.coords t) ((dats m 0 c).after 4 t) = _
  rw [after0_4]
  unfold out0_4
  rw [View.canon_unit_zero hz2]
  simp only [View.ld_unit_zero (S := S5000x64) hz2, View.ld_unit_zero (S := S64x128) hz2, View.ld_unit_zero (S := S128) hz1,
    View.ld_unit_zero (S := S128x64) hz2]
  delta iblk
  exact flushed_abs (arrA m c) (arrW1 m c) (arrB1 m c) (arrW2 m c) t

/-- An index of the array is in point t's block iff each coordinate is in the block's range on its axis. -/
theorem mem_blk (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v43).slice (win0_4.rect t)).set ↔ _
  rw [View.set_slice_whole, Rect.mem_set_unit]
  exact Iff.rfl

/-- Every block index 0 … 9 is some point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- Every index of the array is in the block of the point its row falls in. -/
theorem cover (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE ARRAY after the region: the two-layer map of every row of the array the region was given. -/
theorem final (c : Dev nD) :
    (dats m 0 c).arrAt 4 cfg0.N = mlp (arrA m c) (arrW1 m c) (arrB1 m c) (arrW2 m c) :=
  (dats m 0 c).arrAt_eq_of_cover 4 (mlp (arrA m c) (arrW1 m c) (arrB1 m c) (arrW2 m c)) (fun t _ => flushed_eq m c t) cover

end Cert.KernelIdeal.Arr

end
-- ==== Proof.KernelHost.lean ====
/- The kernel program's host operations around its region.

   Before the region the program computes, from the edge list, the index columns and the edge weights, and from the node
   features the first aggregation: the array the region's first window stages. After the region it aggregates the region's
   result the same way and adds the second bias to every row. Both are the operations the reference applies, so each is stated
   as the one shared term of its inputs; nothing here opens that term. -/
import proofs.«100995_j23630910062676_1_alg».proof.Proof.Gen.KernelIdeal.Frame
import proofs.«100995_j23630910062676_1_alg».proof.Proof.AggSpec
import Idealize.ShloMosaic.Lib.StableHlo.Run
import Idealize.ShloMosaic.Lib.Pipeline.FrameSuffix

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The array the region's first window stages is the aggregation of the node features. -/
theorem V_agg (c : Dev nD) :
    (V m c main_v42 : (⟨S50000x64, .f32⟩ : BufTy).Contents (Elt F))
      = Cert.Bridge.agg (F := F) (m ((c : Thread nD τ).loc main_arg0)) (m ((c : Thread nD τ).loc main_arg1)) := by
  dsimp only [V, V0]
  rw [List.flatten_cons, List.flatten_cons, List.flatten_cons, List.flatten_nil, List.append_nil, StableHlo.after_append,
    StableHlo.after_append]
  after_results_simp
  rfl

/-- The edges' source words, as the region and the lines after it find them. -/
theorem V_src (c : Dev nD) :
    (V m c main_v3 : (⟨S850000, .i32⟩ : BufTy).Contents (Elt F))
      = Cert.ReferenceIdeal.Read.val_main_v3 (F := F) (m ((c : Thread nD τ).loc main_arg1)) := by
  dsimp only [V, V0]
  rw [List.flatten_cons, List.flatten_cons, List.flatten_cons, List.flatten_nil, List.append_nil, StableHlo.after_append,
    StableHlo.after_append]
  after_results_simp
  rfl

/-- The edges' target words. -/
theorem V_dst (c : Dev nD) :
    (V m c main_v6 : (⟨S850000, .i32⟩ : BufTy).Contents (Elt F))
      = Cert.ReferenceIdeal.Read.val_main_v6 (F := F) (m ((c : Thread nD τ).loc main_arg1)) := by
  dsimp only [V, V0]
  rw [List.flatten_cons, List.flatten_cons, List.flatten_cons, List.flatten_nil, List.append_nil, StableHlo.after_append,
    StableHlo.after_append]
  after_results_simp
  rfl

/-- The edges' weights. -/
theorem V_wgt (c : Dev nD) :
    (V m c main_v29 : (⟨S850000, .f32⟩ : BufTy).Contents (Elt F))
      = Cert.ReferenceIdeal.Read.val_main_v29 (F := F) (m ((c : Thread nD τ).loc main_arg1)) := by
  dsimp only [V, V0]
  rw [List.flatten_cons, List.flatten_cons, List.flatten_cons, List.flatten_nil, List.append_nil, StableHlo.after_append,
    StableHlo.after_append]
  after_results_simp
  rfl

/-- After the region: the aggregation of the region's result, plus the second bias on every row. -/
theorem tail_eq (c : Dev nD) :
    (Pipeline.afterTail₀ cfgs (dats m) 0 (V0 m) [hostOps1] c main_v59 : (⟨S50000x64, .f32⟩ : BufTy).Contents (Elt F))
      = addf (Cert.Bridge.agg (F := F) ((dats m 0 c).arrAt 4 cfg0.N) (m ((c : Thread nD τ).loc main_arg1)))
          (Cert.ReferenceIdeal.Read.val_main_v63 (F := F) (m ((c : Thread nD τ).loc main_arg5))) := by
  have e43 : (Pipeline.withArrays (cfgs 0).spec c (V0 m c) (fun w => (dats m 0 c).arrAt w (cfgs 0).N) (Proc.tc.devRef main_v43) :
      (⟨S50000x64, .f32⟩ : BufTy).Contents (Elt F)) = (dats m 0 c).arrAt 4 cfg0.N :=
    Pipeline.withArrays_arr spec0 launch0.win.arr_inj c (V0 m c) _ 4
  have e3 : (Pipeline.withArrays (cfgs 0).spec c (V0 m c) (fun w => (dats m 0 c).arrAt w (cfgs 0).N) (Proc.tc.devRef main_v3) :
      (⟨S850000, .i32⟩ : BufTy).Contents (Elt F)) = Cert.ReferenceIdeal.Read.val_main_v3 (F := F) (m ((c : Thread nD τ).loc main_arg1)) :=
    (Pipeline.withArrays_of_ne _ c (V0 m c) _ main_v3 (by exact (by decide : ∀ w, Pipeline.arrRef spec0 w ≠ main_v3))).trans (V_src m c)
  have e6 : (Pipeline.withArrays (cfgs 0).spec c (V0 m c) (fun w => (dats m 0 c).arrAt w (cfgs 0).N) (Proc.tc.devRef main_v6) :
      (⟨S850000, .i32⟩ : BufTy).Contents (Elt F)) = Cert.ReferenceIdeal.Read.val_main_v6 (F := F) (m ((c : Thread nD τ).loc main_arg1)) :=
    (Pipeline.withArrays_of_ne _ c (V0 m c) _ main_v6 (by exact (by decide : ∀ w, Pipeline.arrRef spec0 w ≠ main_v6))).trans (V_dst m c)
  have e29 : (Pipeline.withArrays (cfgs 0).spec c (V0 m c) (fun w => (dats m 0 c).arrAt w (cfgs 0).N) (Proc.tc.devRef main_v29) :
      (⟨S850000, .f32⟩ : BufTy).Contents (Elt F)) = Cert.ReferenceIdeal.Read.val_main_v29 (F := F) (m ((c : Thread nD τ).loc main_arg1)) :=
    (Pipeline.withArrays_of_ne _ c (V0 m c) _ main_v29 (by exact (by decide : ∀ w, Pipeline.arrRef spec0 w ≠ main_v29))).trans (V_wgt m c)
  have e5 : (Pipeline.withArrays (cfgs 0).spec c (V0 m c) (fun w => (dats m 0 c).arrAt w (cfgs 0).N) (Proc.tc.devRef main_arg5) :
      (⟨S64, .f32⟩ : BufTy).Contents (Elt F)) = m ((c : Thread nD τ).loc main_arg5) :=
    (Pipeline.withArrays_of_ne _ c (V0 m c) _ main_arg5 (by exact (by decide : ∀ w, Pipeline.arrRef spec0 w ≠ main_arg5))).trans (V_main_arg5 m c)
  unfold Pipeline.afterTail₀
  rw [List.flatten_cons, List.flatten_nil, List.append_nil]
  after_results_simp
  rw [e43, e3, e6, e29, e5]
  rfl

end Cert.KernelIdeal.HostSide

end
-- ==== Proof.MainEq.lean ====
/- The region's result is the reference's second product.

   Row by row: the kernel's two-layer map of the aggregated node features is
     sum over l of max (sum over k of Agg x (n, k) * W1 (k, l) + b1 l, 0) * W2 (l, q),
   and the reference's second product is the same sum with the inner term Agg (x · W1) (n, l) + b1 l. The two inner terms
   are equal by the interchange of aggregation and the first weight matrix, which is where the inputs' finiteness is used. -/
import proofs.«100995_j23630910062676_1_alg».proof.Proof.AggSpec
import proofs.«100995_j23630910062676_1_alg».proof.Proof.KernelArray

noncomputable section

namespace Cert.Bridge

open Idealize.ShloMosaic Idealize.ShloMosaic.ValueIdx Cert.ReferenceIdeal Cert.ReferenceIdeal.Read
open scoped BigOperators

/-- The first bias broadcast over the rows reads the bias at the column. -/
theorem bias1_apply (b1 : (⟨S128, .f32⟩ : BufTy).Contents (Elt Ideal)) (n : Fin 50000) (l : Fin 128) :
    val_main_v45 (F := Ideal) b1 (ix2 n l) = b1 (ix1 l) := by
  rw [val_main_v45_apply, val_main_v44_apply]
  congr 1
  funext a
  match a with
  | ⟨0, _⟩ => rfl

/-- The reference's hidden layer after the maximum with zero, at (n, l). -/
theorem hidden_apply (x : (⟨S50000x64, .f32⟩ : BufTy).Contents (Elt Ideal)) (ei : EI) (w1 : (⟨S64x128, .f32⟩ : BufTy).Contents (Elt Ideal))
    (b1 : (⟨S128, .f32⟩ : BufTy).Contents (Elt Ideal)) (n : Fin 50000) (l : Fin 128) :
    val_main_v47 (F := Ideal) x ei w1 b1 (ix2 n l) = max (val_main_v43 (F := Ideal) x ei w1 (ix2 n l) + b1 (ix1 l)) 0 := by
  rw [val_main_v47_apply, val_main_v46_apply, val_main_call1_v0_apply, val_main_call1_cst_apply, bias1_apply,
    Ideal.maximumf_def, Ideal.addf_def, Ideal.ofBits_def, Ideal.ofBits_zero_f32]

/-- THE BRIDGE: with every node feature and every entry of W1 a real, the two-layer map of the aggregated features is the
    reference's second product, as whole arrays. -/
theorem mlp_agg_eq (x : (⟨S50000x64, .f32⟩ : BufTy).Contents (Elt Ideal)) (ei : EI) (w1 : (⟨S64x128, .f32⟩ : BufTy).Contents (Elt Ideal))
    (b1 : (⟨S128, .f32⟩ : BufTy).Contents (Elt Ideal)) (w2 : (⟨S128x64, .f32⟩ : BufTy).Contents (Elt Ideal))
    (hx : ∀ i, ∃ r : ℝ, x i = (r : EReal)) (hw : ∀ i, ∃ r : ℝ, w1 i = (r : EReal)) :
    Cert.KernelIdeal.Arr.mlp (agg (F := Ideal) x ei) w1 b1 w2 = val_main_v48 (F := Ideal) x ei w1 b1 w2 := by
  funext i
  obtain ⟨n, q, rfl⟩ : ∃ (n : Fin 50000) (q : Fin 64), i = ix2 n q := ⟨i 0, i 1, eq_ix2 i⟩
  rw [Cert.KernelIdeal.Arr.mlp_ix2, val_main_v48_apply]
  unfold Cert.KernelIdeal.Arr.mlpAt
  refine Finset.sum_congr rfl fun l _ => ?_
  have hl : lidx_main_v48 (ix2 n q) l = ix2 n l := funext fun a => by
    match a with
    | ⟨0, _⟩ => rfl
    | ⟨1, _⟩ => rfl
  have hr : ridx_main_v48 (ix2 n q) l = ix2 l q := funext fun a => by
    match a with
    | ⟨0, _⟩ => rfl
    | ⟨1, _⟩ => rfl
  rw [hl, hr, hidden_apply, agg_then_mul x ei w1 hx hw n l]

end Cert.Bridge

end
-- ==== Proof.KernelRun.lean ====
/- The kernel program's run, read at its result.

   The generated frame run states every array of the region and every other buffer after the program's last host line. The
   result buffer is the last line's: the aggregation of the region's output array plus the second bias. The region's output array
   is the two-layer map of the array its first window stages, which is the aggregation of the node features; by the bridge that
   is the reference's second product, so the result is the reference's result term of the same arguments. The argument arrays
   end as launched, as in the generated frame. -/
import proofs.«100995_j23630910062676_1_alg».proof.Proof.Gen.KernelIdeal.Frame
import proofs.«100995_j23630910062676_1_alg».proof.Proof.KernelArray
import proofs.«100995_j23630910062676_1_alg».proof.Proof.KernelHost
import proofs.«100995_j23630910062676_1_alg».proof.Proof.MainEq

set_option maxRecDepth 16384

noncomputable section

namespace Cert.KernelIdeal.RunValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result buffer after the last host line is the reference's result term of the launch contents of the arguments, when
    every node feature and every entry of the first weight matrix is a real. -/
theorem result_eq (c : Dev nD)
    (hx : ∀ i, ∃ r : ℝ, (m ((c : Thread nD τ).loc main_arg0) : (⟨S50000x64, .f32⟩ : BufTy).Contents (Elt Ideal)) i = (r : EReal))
    (hw : ∀ i, ∃ r : ℝ, (m ((c : Thread nD τ).loc main_arg2) : (⟨S64x128, .f32⟩ : BufTy).Contents (Elt Ideal)) i = (r : EReal)) :
    (Pipeline.afterTail₀ cfgs (dats m) 0 (V0 m) [hostOps1] c main_v59 : (⟨S50000x64, .f32⟩ : BufTy).Contents (Elt Ideal))
      = Cert.ReferenceIdeal.Read.val_main_v64 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have hA : Arr.arrA m c = Cert.Bridge.agg (F := Ideal) (m ((c : Thread nD τ).loc main_arg0)) (m ((c : Thread nD τ).loc main_arg1)) :=
    HostSide.V_agg m c
  have hW1 : Arr.arrW1 m c = m ((c : Thread nD τ).loc main_arg2) := V_main_arg2 m c
  have hB1 : Arr.arrB1 m c = m ((c : Thread nD τ).loc main_arg3) := V_main_arg3 m c
  have hW2 : Arr.arrW2 m c = m ((c : Thread nD τ).loc main_arg4) := V_main_arg4 m c
  refine (HostSide.tail_eq m c).trans ?_
  rw [Arr.final m c, hA, hW1, hB1, hW2, Cert.Bridge.ref_result,
    Cert.Bridge.mlp_agg_eq _ _ _ _ _ hx hw]

/-- THE RUN: every weakly fair execution of the kernel program terminates with the result buffer at the reference's result term
    of the arguments and the arguments unchanged (the argument clauses read off the frame run's post as the generated frame
    reads them). -/
theorem run
    (hx : ∀ c : Dev nD, ∀ i, ∃ r : ℝ, (m ((c : Thread nD τ).loc main_arg0) : (⟨S50000x64, .f32⟩ : BufTy).Contents (Elt Ideal)) i = (r : EReal))
    (hw : ∀ c : Dev nD, ∀ i, ∃ r : ℝ, (m ((c : Thread nD τ).loc main_arg2) : (⟨S64x128, .f32⟩ : BufTy).Contents (Elt Ideal)) i = (r : EReal)) :
    θ_run defs (onTc (τ := τ) (main (F := Ideal))) ⟨m, fun _ => 0, ρ⟩ (fun r => ∀ c : Dev nD,
      r.2.mem ((c.tc : Thread nD τ).loc main_v59)
          = Cert.ReferenceIdeal.Read.val_main_v64 (F := Ideal) (m ((c : Thread nD τ).loc main_arg0)) (m ((c : Thread nD τ).loc main_arg1))
              (m ((c : Thread nD τ).loc main_arg2)) (m ((c : Thread nD τ).loc main_arg3)) (m ((c : Thread nD τ).loc main_arg4))
              (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h c).2 main_v59 (Pipeline.mem_restRefs_of main_v59 (by decide) (by decide))).trans (result_eq m c (hx c) (hw c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 1).trans (((dats m 0 c).arrAt_in 1 rfl _).trans ((A_eq m c 1).trans (V_main_arg2 m c))),
        ((h c).1 2).trans (((dats m 0 c).arrAt_in 2 rfl _).trans ((A_eq m c 2).trans (V_main_arg3 m c))),
        ((h c).1 3).trans (((dats m 0 c).arrAt_in 3 rfl _).trans ((A_eq m c 3).trans (V_main_arg4 m c))),
        ((h c).2 main_arg5 (Pipeline.mem_restRefs_of main_arg5 (by decide) (by decide))).trans (W_main_arg5 m (dats m) c)⟩)
    (run_main m ρ)

end Cert.KernelIdeal.RunValue

end
-- ==== Proof.lean ====
/- A two-layer graph convolution over 50000 nodes and 800000 edges (plus one self-loop per node), against its plain reference.

   With A the normalised adjacency — A v (n, j) = sum over the edges e into node n of v (source of e, j) · weight e, the weight
   the product of the inverse square roots of the two end nodes' degrees, zero where a degree is not positive — the reference
   computes   A (max (A (x · W1) + b1, 0) · W2) + b2,   and the kernel program computes   A (max ((A x) · W1 + b1, 0) · W2) + b2,
   the inner two-layer map of the rows of A x in one region over ten blocks of 5000 rows.

   The two differ only in the first layer: (A x) · W1 against A (x · W1). Over the reals these are equal by distributivity and an
   exchange of two finite sums. Over the extended reals that law needs every factor finite: the node features and the first
   weight matrix are finite by the precondition, and every edge weight is a real because a degree is a finite count and its
   inverse root is taken only where the count is positive. Everything after the first layer is the same operations applied to
   equal values, so it is carried as one shared term and never opened. A narrowing of a product's operands to a shorter float
   format is the identity on the extended reals, a product into a zero accumulator is the plain sum, and the region's ten blocks
   tile its output array.

   The frames of the two kernel programs are the generated ones; the reference's frame is its run with the result dropped; the
   idealization rewrote nothing, so its sanction is trivially true. -/
import proofs.«100995_j23630910062676_1_alg».proof.Defs
import proofs.«100995_j23630910062676_1_alg».proof.Proof.Gen.Kernel
import proofs.«100995_j23630910062676_1_alg».proof.Proof.Gen.Kernel.Skeleton
import proofs.«100995_j23630910062676_1_alg».proof.Proof.Gen.Kernel.Launch
import proofs.«100995_j23630910062676_1_alg».proof.Proof.Gen.Kernel.Points
import proofs.«100995_j23630910062676_1_alg».proof.Proof.Gen.Kernel.Frame
import proofs.«100995_j23630910062676_1_alg».proof.Proof.Gen.KernelIdeal
import proofs.«100995_j23630910062676_1_alg».proof.Proof.Gen.KernelIdeal.Skeleton
import proofs.«100995_j23630910062676_1_alg».proof.Proof.Gen.KernelIdeal.Launch
import proofs.«100995_j23630910062676_1_alg».proof.Proof.Gen.KernelIdeal.Points
import proofs.«100995_j23630910062676_1_alg».proof.Proof.Gen.KernelIdeal.Frame
import proofs.«100995_j23630910062676_1_alg».proof.Proof.Gen.ReferenceIdeal
import proofs.«100995_j23630910062676_1_alg».proof.Proof.RefRun
import proofs.«100995_j23630910062676_1_alg».proof.Proof.RefRead
import proofs.«100995_j23630910062676_1_alg».proof.Proof.Gen.Pre_finite_inputs
import proofs.«100995_j23630910062676_1_alg».proof.Proof.Finite
import proofs.«100995_j23630910062676_1_alg».proof.Proof.AggSpec
import proofs.«100995_j23630910062676_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the reference's result term of the kernel program's arguments: the kernel program by
    its run read at the result, the reference by its run and the agreement of the two memories on the arguments. -/
theorem algebraic : Cert.algebraic_KernelIdeal_ReferenceIdeal := by
  intro m ρ m' ρ' hpre hagree
  have hfin := fun c => Cert.Finite.reals_of_pre _ _ _ _ _ _ (hpre c)
  refine ⟨fun c => Cert.ReferenceIdeal.Read.val_main_v64 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.RunValue.run m ρ (fun c => (hfin c).1) (fun c => (hfin c).2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v64_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
